-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S_ : Shape := ⟨0, ![]⟩

class Facts : Prop where
  bcast_S_S512x512x1024 : S_.BroadcastsInDim S512x512x1024 (![] : Fin 0 → Fin S512x512x1024.rank)
  reducesTo_S512x512x1024_S_d0_1_2 : S512x512x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S4096x1536 : S_.BroadcastsInDim S4096x1536 (![] : Fin 0 → Fin S4096x1536.rank)
  reducesTo_S4096x1536_S_d0_1 : S4096x1536.ReducesTo [0, 1] S_

variable [Facts]

def fn_part1 {F : FTy → Type} [FloatOps F] (main_arg4 : FVec F S3 .f32) (main_arg5 : FVec F S4096x1536 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S4096x1536 .f32 := Host.absf main_arg5
  let main_cst_8 : FVec F S_ .f32 := constant S_ .f32 0x7F800000#32
  let main_v25 : FVec F S4096x1536 .f32 := broadcastInDim S4096x1536 ![] bcast_S_S4096x1536 main_cst_8
  let main_v26 : IVec S4096x1536 1 := cmpf .olt main_v24 main_v25
  let main_c_9 : IVec S_ 1 := constantI S_ 1 1#1
  let main_v27 : IVec S_ 1 := (fun x v => Host.reduce IntOp.andi x v reducesTo_S4096x1536_S_d0_1 h_S_) main_v26 main_c_9
  let main_v28 : IVec S_ 1 := andi main_v23 main_v27
  main_v28

def fn {F : FTy → Type} [FloatOps F] (main_arg0 : FVec F S512x512x1024 .f32) (main_arg1 : FVec F S3x1024 .f32) (main_arg2 : FVec F S3 .f32) (main_arg3 : FVec F S3 .f32) (main_arg4 : FVec F S3 .f32) (main_arg5 : FVec F S4096x1536 .f32) : IVec S_ 1 :=
  let main_v0 : FVec F S512x512x1024 .f32 := Host.absf main_arg0
  let main_cst : FVec F S_ .f32 := constant S_ .f32 0x7F800000#32
  let main_v1 : FVec F S512x512x1024 .f32 := broadcastInDim S512x512x1024 ![] bcast_S_S512x512x1024 main_cst
  let main_v2 : IVec S512x512x1024 1 := cmpf .olt main_v0 main_v1
  let main_c : IVec S_ 1 := constantI S_ 1 1#1
  let main_v3 : IVec S_ 1 := (fun x v => Host.reduce IntOp.andi x v reducesTo_S512x512x1024_S_d0_1_2 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_v13 main_v16
-- ==== Kernel.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S512x512x3 : Shape := ⟨3, ![512, 512, 3]⟩
abbrev S16x128x1024 : Shape := ⟨3, ![16, 128, 1024]⟩
abbrev S16x128x3 : Shape := ⟨3, ![16, 128, 3]⟩
abbrev S2048x1024 : Shape := ⟨2, ![2048, 1024]⟩
abbrev S2048x3 : Shape := ⟨2, ![2048, 3]⟩
abbrev S1x3 : Shape := ⟨2, ![1, 3]⟩
abbrev S512x3x512 : Shape := ⟨3, ![512, 3, 512]⟩
abbrev S_ : Shape := ⟨0, ![]⟩
abbrev S1x3x1 : Shape := ⟨3, ![1, 3, 1]⟩
abbrev S512x1536 : Shape := ⟨2, ![512, 1536]⟩
abbrev S512x4096 : Shape := ⟨2, ![512, 4096]⟩
abbrev S128x1536 : Shape := ⟨2, ![128, 1536]⟩
abbrev S128x512 : Shape := ⟨2, ![128, 512]⟩

abbrev nBuf : Space → Nat
  | .hbm => 39
  | .vmem => 12
  | .smem => 0
  | _ => 0

abbrev bufTy : (tb : Table) → Fin (tcTables nBuf tb) → BufTy
  | .hbm, ⟨0, _⟩ => ⟨S512x512x1024, .f32⟩
  | .hbm, ⟨1, _⟩ => ⟨S3x1024, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S4096x1536, .f32⟩
  | .hbm, ⟨6, _⟩ => ⟨S512x512x3, .f32⟩
  | .hbm, ⟨7, _⟩ => ⟨S512x3x512, .f32⟩
  | .hbm, ⟨8, _⟩ => ⟨S_, .f32⟩
  | .hbm, ⟨9, _⟩ => ⟨S3, .f32⟩
  | .hbm, ⟨10, _⟩ => ⟨S1x3x1, .f32⟩
  | .hbm, ⟨11, _⟩ => ⟨S_, .f32⟩
  | .hbm, ⟨12, _⟩ => ⟨S1x3x1, .f32⟩
  | .hbm, ⟨13, _⟩ => ⟨S1x3x1, .f32⟩
  | .hbm, ⟨14, _⟩ => ⟨S512x3x512, .f32⟩
  | .hbm, ⟨15, _⟩ => ⟨S512x3x512, .f32⟩
  | .hbm, ⟨16, _⟩ => ⟨S512x3x512, .f32⟩
  | .hbm, ⟨17, _⟩ => ⟨S_, .f32⟩
  | .hbm, ⟨18, _⟩ => ⟨S3, .f32⟩
  | .hbm, ⟨19, _⟩ => ⟨S1x3x1, .f32⟩
  | .hbm, ⟨20, _⟩ => ⟨S_, .f32⟩
  | .hbm, ⟨21, _⟩ => ⟨S1x3x1, .f32⟩
  | .hbm, ⟨22, _⟩ => ⟨S1x3x1, .f32⟩
  | .hbm, ⟨23, _⟩ => ⟨S512x3x512, .f32⟩
  | .hbm, ⟨24, _⟩ => ⟨S512x3x512, .f32⟩
  | .hbm, ⟨25, _⟩ => ⟨S_, .f32⟩
  | .hbm, ⟨26, _⟩ => ⟨S1x3x1, .f32⟩
  | .hbm, ⟨27, _⟩ => ⟨S1x3x1, .f32⟩
  | .hbm, ⟨28, _⟩ => ⟨S1x3x1, .f32⟩
  | .hbm, ⟨29, _⟩ => ⟨S512x3x512, .f32⟩
  | .hbm, ⟨30, _⟩ => ⟨S512x3x512, .f32⟩
  | .hbm, ⟨31, _⟩ => ⟨S1x3x1, .f32⟩
  | .hbm, ⟨32, _⟩ => ⟨S512x3x512, .f32⟩
  | .hbm, ⟨33, _⟩ => ⟨S512x3x512, .f32⟩
  | .hbm, ⟨34, _⟩ => ⟨S1x3x1, .f32⟩
  | .hbm, ⟨35, _⟩ => ⟨S512x3x512, .f32⟩
  | .hbm, ⟨36, _⟩ => ⟨S512x3x512, .f32⟩
  | .hbm, ⟨37, _⟩ => ⟨S512x1536, .f32⟩
  | .hbm, ⟨38, _⟩ => ⟨S512x4096, .f32⟩
  | .local _ .vmem, ⟨0, _⟩ => ⟨S16x128x1024, .f32⟩
  | .local _ .vmem, ⟨1, _⟩ => ⟨S16x128x1024, .f32⟩
  | .local _ .vmem, ⟨2, _⟩ => ⟨S3x1024, .f32⟩
  | .local _ .vmem, ⟨3, _⟩ => ⟨S3, .f32⟩
  | .local _ .vmem, ⟨4, _⟩ => ⟨S16x128x3, .f32⟩
  | .local _ .vmem, ⟨5, _⟩ => ⟨S16x128x3, .f32⟩
  | .local _ .vmem, ⟨6, _⟩ => ⟨S128x1536, .f32⟩
  | .local _ .vmem, ⟨7, _⟩ => ⟨S128x1536, .f32⟩
  | .local _ .vmem, ⟨8, _⟩ => ⟨S512x1536, .f32⟩
  | .local _ .vmem, ⟨9, _⟩ => ⟨S512x1536, .f32⟩
  | .local _ .vmem, ⟨10, _⟩ => ⟨S128x512, .f32⟩
  | .local _ .vmem, ⟨11, _⟩ => ⟨S128x512, .f32⟩
  | _, _ => ⟨S512x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128x1024_S16x128x1024_0_0_0 : ∀ a, (![0, 0, 0] : Fin 3 → Nat) a + S16x128x1024.size a ≤ S16x128x1024.size a
  h_S16x128x1024 : 0 < S16x128x1024.numel
  shapeCasts_S16x128x1024_S2048x1024 : S16x128x1024.ShapeCasts S2048x1024
  bitsLt_bf16_f32 : FTy.bits .bf16 < FTy.bits .f32
  inb_S3x1024_S3x1024_0_0 : ∀ a, (![0, 0] : Fin 2 → Nat) a + S3x1024.size a ≤ S3x1024.size a
  h_S3x1024 : 0 < S3x1024.numel
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  shapeCasts_S2048x3_S16x128x3 : S2048x3.ShapeCasts S16x128x3
  inb_S16x128x3_S16x128x3_0_0_0 : ∀ a, (![0, 0, 0] : Fin 3 → Nat) a + S16x128x3.size a ≤ S16x128x3.size a
  h_S16x128x3 : 0 < S16x128x3.numel
  transposes_S512x512x3_S512x3x512_0_2_1 : S512x512x3.Transposes [0, 2, 1] S512x3x512
  reducesTo_S512x3x512_S3_d0_2 : S512x3x512.ReducesTo [0, 2] S3
  h_S_ : 0 < S_.numel
  bcast_S3_S1x3x1_1 : S3.BroadcastsInDim S1x3x1 (![1] : Fin 1 → Fin S1x3x1.rank)
  bcast_S_S1x3x1 : S_.BroadcastsInDim S1x3x1 (![] : Fin 0 → Fin S1x3x1.rank)
  bcast_S1x3x1_S512x3x512_0_1_2 : S1x3x1.BroadcastsInDim S512x3x512 (![0, 1, 2] : Fin 3 → Fin S512x3x512.rank)
  shapeCasts_S512x3x512_S512x1536 : S512x3x512.ShapeCasts S512x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S512x1536_S512x1536_0_0 : ∀ a, (![0, 0] : Fin 2 → Nat) a + S512x1536.size a ≤ S512x1536.size a
  h_S512x1536 : 0 < S512x1536.numel
  inb_S128x512_S128x512_0_0 : ∀ a, (![0, 0] : Fin 2 → Nat) a + S128x512.size a ≤ S128x512.size a
  h_S128x512 : 0 < S128x512.numel
  dot_S2048x1024_S3x1024_S2048x3_1_1_0_0_n_n_wf : DotDims.WF S2048x1024 S3x1024 S2048x3 [1] [1] [0] [0] [] []
  dot_S128x1536_S512x1536_S128x512_1_1_0_0_n_n_wf : DotDims.WF S128x1536 S512x1536 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S512x512x1024.size a
  hwx0_0 : ∀ i : grid0.Coords, EltTy.bits .f32 = 32 ∨ (Rect.block (s := S512x512x1024) S16x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x3.size a ≤ S512x512x3.size a
  hwx0_3 : ∀ i : grid0.Coords, EltTy.bits .f32 = 32 ∨ (Rect.block (s := S512x512x3) S16x128x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1536.size a ≤ S512x1536.size a
  hwx1_0 : ∀ i : grid1.Coords, EltTy.bits .f32 = 32 ∨ (Rect.block (s := S512x1536) S128x1536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S4096x1536.size a
  hwx1_1 : ∀ i : grid1.Coords, EltTy.bits .f32 = 32 ∨ (Rect.block (s := S4096x1536) S512x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S512x4096.size a
  hwx1_2 : ∀ i : grid1.Coords, EltTy.bits .f32 = 32 ∨ (Rect.block (s := S512x4096) S128x512.size (cc1_transform_2 i) (hinb1_2 i)).WholeWords (EltTy.packing .f32)

variable [Facts₀]

def dot_S2048x1024_S3x1024_S2048x3_1_1_0_0_n_n : DotDims S2048x1024 S3x1024 S2048x3 where
  lhsContracting := [1]
  rhsContracting := [1]
  lhsNonContracting := [0]
  rhsNonContracting := [0]
  lhsBatch := []
  rhsBatch := []
  wf := dot_S2048x1024_S3x1024_S2048x3_1_1_0_0_n_n_wf
def dot_S128x1536_S512x1536_S128x512_1_1_0_0_n_n : DotDims S128x1536 S512x1536 S128x512 where
  lhsContracting := [1]
  rhsContracting := [1]
  lhsNonContracting := [0]
  rhsNonContracting := [0]
  lhsBatch := []
  rhsBatch := []
  wf := dot_S128x1536_S512x1536_S128x512_1_1_0_0_n_n_wf

abbrev win0_0 : Pipeline.Window sig grid0 :=
  Pipeline.Window.ofSpec (Memref.whole main_arg0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x128x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S128x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S512x512x3 : Shape := ⟨3, ![512, 512, 3]⟩
abbrev S1x1x3 : Shape := ⟨3, ![1, 1, 3]⟩
abbrev S512x3x512 : Shape := ⟨3, ![512, 3, 512]⟩
abbrev S_ : Shape := ⟨0, ![]⟩
abbrev S1x3x1 : Shape := ⟨3, ![1, 3, 1]⟩
abbrev S512x1536 : Shape := ⟨2, ![512, 1536]⟩
abbrev S1536x4096 : Shape := ⟨2, ![1536, 4096]⟩
abbrev S512x4096 : Shape := ⟨2, ![512, 4096]⟩

abbrev nBuf : Space → Nat
  | .hbm => 43
  | .vmem => 0
  | .smem => 0
  | _ => 0

abbrev bufTy : (tb : Table) → Fin (tcTables nBuf tb) → BufTy
  | .hbm, ⟨0, _⟩ => ⟨S512x512x1024, .f32⟩
  | .hbm, ⟨1, _⟩ => ⟨S3x1024, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S4096x1536, .f32⟩
  | .hbm, ⟨6, _⟩ => ⟨S512x512x3, .f32⟩
  | .hbm, ⟨7, _⟩ => ⟨S1x1x3, .f32⟩
  | .hbm, ⟨8, _⟩ => ⟨S512x512x3, .f32⟩
  | .hbm, ⟨9, _⟩ => ⟨S512x512x3, .f32⟩
  | .hbm, ⟨10, _⟩ => ⟨S512x3x512, .f32⟩
  | .hbm, ⟨11, _⟩ => ⟨S_, .f32⟩
  | .hbm, ⟨12, _⟩ => ⟨S3, .f32⟩
  | .hbm, ⟨13, _⟩ => ⟨S1x3x1, .f32⟩
  | .hbm, ⟨14, _⟩ => ⟨S_, .f32⟩
  | .hbm, ⟨15, _⟩ => ⟨S1x3x1, .f32⟩
  | .hbm, ⟨16, _⟩ => ⟨S1x3x1, .f32⟩
  | .hbm, ⟨17, _⟩ => ⟨S512x3x512, .f32⟩
  | .hbm, ⟨18, _⟩ => ⟨S512x3x512, .f32⟩
  | .hbm, ⟨19, _⟩ => ⟨S512x3x512, .f32⟩
  | .hbm, ⟨20, _⟩ => ⟨S_, .f32⟩
  | .hbm, ⟨21, _⟩ => ⟨S3, .f32⟩
  | .hbm, ⟨22, _⟩ => ⟨S1x3x1, .f32⟩
  | .hbm, ⟨23, _⟩ => ⟨S_, .f32⟩
  | .hbm, ⟨24, _⟩ => ⟨S1x3x1, .f32⟩
  | .hbm, ⟨25, _⟩ => ⟨S1x3x1, .f32⟩
  | .hbm, ⟨26, _⟩ => ⟨S512x3x512, .f32⟩
  | .hbm, ⟨27, _⟩ => ⟨S512x3x512, .f32⟩
  | .hbm, ⟨28, _⟩ => ⟨S_, .f32⟩
  | .hbm, ⟨29, _⟩ => ⟨S1x3x1, .f32⟩
  | .hbm, ⟨30, _⟩ => ⟨S1x3x1, .f32⟩
  | .hbm, ⟨31, _⟩ => ⟨S1x3x1, .f32⟩
  | .hbm, ⟨32, _⟩ => ⟨S512x3x512, .f32⟩
  | .hbm, ⟨33, _⟩ => ⟨S512x3x512, .f32⟩
  | .hbm, ⟨34, _⟩ => ⟨S1x3x1, .f32⟩
  | .hbm, ⟨35, _⟩ => ⟨S512x3x512, .f32⟩
  | .hbm, ⟨36, _⟩ => ⟨S512x3x512, .f32⟩
  | .hbm, ⟨37, _⟩ => ⟨S1x3x1, .f32⟩
  | .hbm, ⟨38, _⟩ => ⟨S512x3x512, .f32⟩
  | .hbm, ⟨39, _⟩ => ⟨S512x3x512, .f32⟩
  | .hbm, ⟨40, _⟩ => ⟨S512x1536, .f32⟩
  | .hbm, ⟨41, _⟩ => ⟨S1536x4096, .f32⟩
  | .hbm, ⟨42, _⟩ => ⟨S512x4096, .f32⟩
  | _, _ => ⟨S512x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S512x512x3_0_1_2 : S1x1x3.BroadcastsInDim S512x512x3 (![0, 1, 2] : Fin 3 → Fin S512x512x3.rank)
  transposes_S512x512x3_S512x3x512_0_2_1 : S512x512x3.Transposes [0, 2, 1] S512x3x512
  reducesTo_S512x3x512_S3_d0_2 : S512x3x512.ReducesTo [0, 2] S3
  h_S_ : 0 < S_.numel
  bcast_S3_S1x3x1_1 : S3.BroadcastsInDim S1x3x1 (![1] : Fin 1 → Fin S1x3x1.rank)
  bcast_S_S1x3x1 : S_.BroadcastsInDim S1x3x1 (![] : Fin 0 → Fin S1x3x1.rank)
  bcast_S1x3x1_S512x3x512_0_1_2 : S1x3x1.BroadcastsInDim S512x3x512 (![0, 1, 2] : Fin 3 → Fin S512x3x512.rank)
  shapeCasts_S512x3x512_S512x1536 : S512x3x512.ShapeCasts S512x1536
  transposes_S4096x1536_S1536x4096_1_0 : S4096x1536.Transposes [1, 0] S1536x4096
  dot_S512x512x1024_S3x1024_S512x512x3_2_1_01_0_n_n_wf : DotDims.WF S512x512x1024 S3x1024 S512x512x3 [2] [1] [0, 1] [0] [] []
  dot_S512x1536_S1536x4096_S512x4096_1_0_0_1_n_n_wf : DotDims.WF S512x1536 S1536x4096 S512x4096 [1] [0] [0] [1] [] []

variable [Facts₀]

def dot_S512x512x1024_S3x1024_S512x512x3_2_1_01_0_n_n : DotDims S512x512x1024 S3x1024 S512x512x3 where
  lhsContracting := [2]
  rhsContracting := [1]
  lhsNonContracting := [0, 1]
  rhsNonContracting := [0]
  lhsBatch := []
  rhsBatch := []
  wf := dot_S512x512x1024_S3x1024_S512x512x3_2_1_01_0_n_n_wf
def dot_S512x1536_S1536x4096_S512x4096_1_0_0_1_n_n : DotDims S512x1536 S1536x4096 S512x4096 where
  lhsContracting := [1]
  rhsContracting := [0]
  lhsNonContracting := [0]
  rhsNonContracting := [1]
  lhsBatch := []
  rhsBatch := []
  wf := dot_S512x1536_S1536x4096_S512x4096_1_0_0_1_n_n_wf

class Facts : Prop extends Facts₀ where

variable [Facts]
-- ==== Proof.ProjBody.lean ====
/-
  The projection kernel's body at one grid point, read at an index.

  The body takes a block of 16 × 128 rows of 1024 features, flattens it to 2048 rows, multiplies by the transpose
  of the 3 × 1024 weight (a product into a zero accumulator: at the ideal instance a plain sum over the 1024
  features), adds the bias broadcast along the rows, and unflattens to 16 × 128 × 3.  Flattening sends row (p, q) to
  row p · 128 + q and back, so entry (p, q, o) of the result is

      Σ k, x (p, q, k) · w (o, k) + b o.

  The narrowing of both operands to bf16 is the identity on extended reals.
-/
import proofs.«122391_j37039797961005_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjBody

open Cert.KernelIdeal Cert.KernelIdeal.Gen Idealize.ShloMosaic Idealize.ShloMosaic.ValueIdx

/-! ## The product's operand indices: output (r, o) and feature k read the left operand at (r, k), the right at (o, k) -/

theorem lhs_axis0 (i : S2048x3.Idx) (q : dot_S2048x1024_S3x1024_S2048x3_1_1_0_0_n_n.contr.Idx) :
    (dot_S2048x1024_S3x1024_S2048x3_1_1_0_0_n_n.lhsIdx i q 0).val = (i 0).val := by
  unfold DotDims.lhsIdx
  rw [dif_neg (show ¬(0 : Fin S2048x1024.rank) ∈ dot_S2048x1024_S3x1024_S2048x3_1_1_0_0_n_n.lhsBatch by decide), dif_pos (show (0 : Fin S2048x1024.rank) ∈ dot_S2048x1024_S3x1024_S2048x3_1_1_0_0_n_n.lhsNonContracting by decide)]
  rfl
theorem lhs_axis1 (i : S2048x3.Idx) (q : dot_S2048x1024_S3x1024_S2048x3_1_1_0_0_n_n.contr.Idx) :
    (dot_S2048x1024_S3x1024_S2048x3_1_1_0_0_n_n.lhsIdx i q 1).val = (q ⟨0, by decide⟩).val :=
  dot_S2048x1024_S3x1024_S2048x3_1_1_0_0_n_n.lhsIdx_val_of_single rfl i q
theorem rhs_axis0 (i : S2048x3.Idx) (q : dot_S2048x1024_S3x1024_S2048x3_1_1_0_0_n_n.contr.Idx) :
    (dot_S2048x1024_S3x1024_S2048x3_1_1_0_0_n_n.rhsIdx i q 0).val = (i 1).val := by
  unfold DotDims.rhsIdx
  rw [dif_neg (show ¬(0 : Fin S3x1024.rank) ∈ dot_S2048x1024_S3x1024_S2048x3_1_1_0_0_n_n.rhsBatch by decide), dif_pos (show (0 : Fin S3x1024.rank) ∈ dot_S2048x1024_S3x1024_S2048x3_1_1_0_0_n_n.rhsNonContracting by decide)]
  rfl
theorem rhs_axis1 (i : S2048x3.Idx) (q : dot_S2048x1024_S3x1024_S2048x3_1_1_0_0_n_n.contr.Idx) :
    (dot_S2048x1024_S3x1024_S2048x3_1_1_0_0_n_n.rhsIdx i q 1).val = (q ⟨0, by decide⟩).val :=
  dot_S2048x1024_S3x1024_S2048x3_1_1_0_0_n_n.rhsIdx_val_of_single rfl i q

/-- Feature `k` of the left operand's row for output entry `i` = (r, o): (r, k). -/
abbrev lrow (i : S2048x3.Idx) (k : Fin 1024) : S2048x1024.Idx := fun a => match a with
  | ⟨0, _⟩ => ⟨(i 0).val, (i 0).isLt⟩
  | ⟨1, _⟩ => ⟨k.val, k.isLt⟩
/-- Feature `k` of the right operand's row for output entry `i` = (r, o): (o, k). -/
abbrev rrow (i : S2048x3.Idx) (k : Fin 1024) : S3x1024.Idx := fun a => match a with
  | ⟨0, _⟩ => ⟨(i 1).val, (i 1).isLt⟩
  | ⟨1, _⟩ => ⟨k.val, k.isLt⟩

/-- The product into the zero accumulator, at an entry: the sum over the 1024 features of row times row. -/
theorem product_apply (l : FVec Ideal S2048x1024 .bf16) (r : FVec Ideal S3x1024 .bf16) (i : S2048x3.Idx) :
    matmul dot_S2048x1024_S3x1024_S2048x3_1_1_0_0_n_n none l r (constant (F := Ideal) S2048x3 .f32 0x00000000#32) i
      = ∑ k : Fin 1024, l (lrow i k) * r (rrow i k) := by
  show FloatOps.matmul dot_S2048x1024_S3x1024_S2048x3_1_1_0_0_n_n none l r (constant (F := Ideal) S2048x3 .f32 0x00000000#32) i = _
  rw [Ideal.matmul_constant_zero_apply, ← Equiv.sum_comp (ValueIdx.contrEquiv1 dot_S2048x1024_S3x1024_S2048x3_1_1_0_0_n_n 1024 rfl rfl).symm]
  refine Finset.sum_congr rfl fun k _ => ?_
  have hk := ValueIdx.contrEquiv1_symm_val dot_S2048x1024_S3x1024_S2048x3_1_1_0_0_n_n 1024 rfl rfl k
  have el : dot_S2048x1024_S3x1024_S2048x3_1_1_0_0_n_n.lhsIdx i ((ValueIdx.contrEquiv1 dot_S2048x1024_S3x1024_S2048x3_1_1_0_0_n_n 1024 rfl rfl).symm k) = lrow i k := funext fun a => Fin.ext (by
    match a with
    | ⟨0, _⟩ => exact lhs_axis0 _ _
    | ⟨1, _⟩ => exact (lhs_axis1 _ _).trans hk)
  have er : dot_S2048x1024_S3x1024_S2048x3_1_1_0_0_n_n.rhsIdx i ((ValueIdx.contrEquiv1 dot_S2048x1024_S3x1024_S2048x3_1_1_0_0_n_n 1024 rfl rfl).symm k) = rrow i k := funext fun a => Fin.ext (by
    match a with
    | ⟨0, _⟩ => exact rhs_axis0 _ _
    | ⟨1, _⟩ => exact (rhs_axis1 _ _).trans hk)
  rw [el, er]

/-! ## The body's payload at (p, q, o) -/

/-- Entry (p, q, o) of what the body stores: row (p, q) of the block against weight row `o`, plus the bias of `o`. -/
theorem payload_apply (x0 : FVec Ideal S16x128x1024 .f32) (x1 : FVec Ideal S3x1024 .f32) (x2 : FVec Ideal S3 .f32)
    (p : Fin 16) (q : Fin 128) (o : Fin 3) :
    k0_pay1 (F := Ideal) x0 x1 x2 (ix3 p q o) = (∑ k : Fin 1024, x0 (ix3 p q k) * x1 (ix2 o k)) + x2 (ix1 o) := by
  have hp : p.val < 16 := p.isLt
  have hq : q.val < 128 := q.isLt
  have hr : p.val * 128 + q.val < 2048 := by omega
  unfold k0_pay1
  refine (shapeCast_apply _ _ (ix3 p q o) (ix2 (⟨p.val * 128 + q.val, hr⟩ : Fin 2048) o) ?_).trans ?_
  · rw [Shape.rowMajor_val_two, Shape.rowMajor_val_three]; rfl
  refine congrArg₂ (· + ·) ?_ ?_
  · refine (product_apply _ _ _).trans (Finset.sum_congr rfl fun k _ => ?_)
    refine congrArg₂ (· * ·) ?_ ?_
    · refine (shapeCast_apply x0 _ _ (ix3 p q k) ?_)
      rw [Shape.rowMajor_val_two, Shape.rowMajor_val_three]; rfl
    · exact congrArg x1 (funext fun a => match a with | ⟨0, _⟩ => rfl | ⟨1, _⟩ => rfl)
  · refine (broadcastTo_apply _ _ _ (ix2 (0 : Fin 1) o) ?_).trans ?_
    · intro a
      match a with
      | ⟨0, _⟩ => rfl
      | ⟨1, _⟩ => rfl
    · refine shapeCast_apply x2 _ _ (ix1 o) ?_
      rw [Shape.rowMajor_val_one, Shape.rowMajor_val_two]; show o.val = 0 * 3 + o.val; omega

end Cert.KernelIdeal.ProjBody

end
-- ==== Proof.Spec.lean ====
/-
  The two linear layers of the network as whole-array functions over the extended reals, index by index.

  `proj x w b` is the per-patch projection: entry (p, q, o) is the inner product of row (p, q) of `x` with row `o`
  of `w`, plus `b o`.  `fc y w` is the final layer: entry (p, n) is the inner product of row `p` of `y` with
  row `n` of `w` (the weight is used untransposed: a product with the transpose of `w`).  Both are plain finite
  sums of products, so nothing about them depends on the order or grouping of the terms, on how the rows are
  tiled into blocks, or on a zero the sum is started from.
-/
import Idealize.ShloMosaic.PureOps.Ideal
import Idealize.ShloMosaic.Lib.ValueIdx

noncomputable section

namespace Cert.Spec

open Idealize.ShloMosaic

abbrev SX : Shape := ⟨3, ![512, 512, 1024]⟩
abbrev SW : Shape := ⟨2, ![3, 1024]⟩
abbrev SB : Shape := ⟨1, ![3]⟩
abbrev SY : Shape := ⟨3, ![512, 512, 3]⟩
abbrev SF : Shape := ⟨2, ![512, 1536]⟩
abbrev SV : Shape := ⟨2, ![4096, 1536]⟩
abbrev SO : Shape := ⟨2, ![512, 4096]⟩

/-- Feature `i` of the row of `x` that output entry `j` = (p, q, o) is computed from: (p, q, i). -/
abbrev xAt (j : SY.Idx) (i : Fin 1024) : SX.Idx := fun a => match a with
  | ⟨0, _⟩ => ⟨(j 0).val, (j 0).isLt⟩
  | ⟨1, _⟩ => ⟨(j 1).val, (j 1).isLt⟩
  | ⟨2, _⟩ => ⟨i.val, i.isLt⟩
/-- Feature `i` of the weight row of output channel `o`: (o, i). -/
abbrev wAt (j : SY.Idx) (i : Fin 1024) : SW.Idx := fun a => match a with
  | ⟨0, _⟩ => ⟨(j 2).val, (j 2).isLt⟩
  | ⟨1, _⟩ => ⟨i.val, i.isLt⟩
/-- The bias of output channel `o`. -/
abbrev bAt (j : SY.Idx) : SB.Idx := fun a => match a with
  | ⟨0, _⟩ => ⟨(j 2).val, (j 2).isLt⟩

/-- The projection: `y (p, q, o) = Σ i, x (p, q, i) · w (o, i) + b o`. -/
def proj (x : FVec Ideal SX .f32) (w : FVec Ideal SW .f32) (b : FVec Ideal SB .f32) : FVec Ideal SY .f32 :=
  fun j => (∑ i : Fin 1024, x (xAt j i) * w (wAt j i)) + b (bAt j)

/-- Column `k` of row `p` of the flattened activations: (p, k). -/
abbrev yAt (j : SO.Idx) (k : Fin 1536) : SF.Idx := fun a => match a with
  | ⟨0, _⟩ => ⟨(j 0).val, (j 0).isLt⟩
  | ⟨1, _⟩ => ⟨k.val, k.isLt⟩
/-- Column `k` of the weight row of output feature `n`: (n, k). -/
abbrev vAt (j : SO.Idx) (k : Fin 1536) : SV.Idx := fun a => match a with
  | ⟨0, _⟩ => ⟨(j 1).val, (j 1).isLt⟩
  | ⟨1, _⟩ => ⟨k.val, k.isLt⟩

/-- The final layer: `out (p, n) = Σ k, y (p, k) · w (n, k)`. -/
def fc (y : FVec Ideal SF .f32) (w : FVec Ideal SV .f32) : FVec Ideal SO .f32 :=
  fun j => ∑ k : Fin 1536, y (yAt j k) * w (vAt j k)

end Cert.Spec

end
-- ==== Proof.ProjValue.lean ====
/-
  What the projection region leaves in its output array: the whole-array projection of the arrays it finds.

  The grid is 32 × 4 points.  Point (a, b) reads the block of rows [16 a, 16 a + 16) × [128 b, 128 b + 128) of the
  input (all 1024 features), the whole weight and the whole bias, and writes the block with the same row ranges
  (all 3 channels) of the output.  Inside the block the body computes, at (p, q, o), the inner product of the
  block's row (p, q) with weight row `o` plus the bias of `o`; the block's row (p, q) is the array's row
  (16 a + p, 128 b + q), so what point (a, b) writes back is the block of `Spec.proj` of the three arrays.  The
  32 × 4 blocks tile the 512 × 512 × 3 output (row r lies in block r / 16, column s in block s / 128), so the
  array ends holding `Spec.proj` everywhere.  Stated at any contents `V` the region may be entered from.
-/
import proofs.«122391_j37039797961005_1_alg».proof.Proof.Gen.KernelIdeal.Frame
import proofs.«122391_j37039797961005_1_alg».proof.Proof.ProjBody
import proofs.«122391_j37039797961005_1_alg».proof.Proof.Spec

set_option maxRecDepth 16384

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the input block moves with the output block on the two row axes and
    sits at 0 on the feature axis; weight and bias are one block each; the output block sits at 0 on the channel
    axis, and its row-block indices stay inside 32 × 4. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 1) = 0
    ∧ win0_3.index t (2 : Fin 3) = 0
    ∧ win0_3.index t (0 : Fin 3) ≤ 31
    ∧ win0_3.index t (1 : Fin 3) ≤ 3 :=
  (by decide +kernel : ∀ t : Fin grid0.N, _)

/-- Every block of the 32 × 4 tiling is some point's. -/
theorem idx_onto : ∀ (a : Fin 32) (b : Fin 4), ∃ t : Fin cfg0.N, win0_3.index t = ![a.val, b.val, 0] :=
  (by decide +kernel : ∀ (a : Fin 32) (b : Fin 4), ∃ t : Fin grid0.N, win0_3.index t = ![a.val, b.val, 0])

/-- What point `t` writes back is its block of the whole-array projection. -/
theorem flushed_eq (c : Dev nD) (t : Fin cfg0.N) :
    (dat0 V c).flushed 3 t
      = ((cfg0.win 3).blk t).view.read (Elt Ideal) (Spec.proj (V c main_arg0) (V c main_arg1) (V c main_arg2)) := by
  show (cfg0.win 3).cut (grid0.coords t) ((dat0 V c).after 3 t) = _
  rw [after0_3]
  unfold out0_3
  rw [View.canon_unit_zero zeros3]
  simp only [View.ld_unit_zero (S := S16x128x1024) zeros3, View.ld_unit_zero (S := S3x1024) zeros2, View.ld_unit_zero (S := S3) zeros1]
  obtain ⟨e0, e1, e2, e3, e4, e5, e6, e7, e8⟩ := idx_facts t
  refine funext (fun (j : S16x128x3.Idx) => ?_)
  obtain ⟨p, q, o, rfl⟩ : ∃ (p : Fin 16) (q : Fin 128) (o : Fin 3), j = ix3 p q o := ⟨j 0, j 1, j 2, eq_ix3 j⟩
  have hp : p.val < 16 := p.isLt
  have hq : q.val < 128 := q.isLt
  have ho : o.val < 3 := o.isLt
  show k0_pay1 (F := Ideal) (iblk0 V c 0 t) (iblk0 V c 1 t) (iblk0 V c 2 t) (ix3 p q o)
    = Spec.proj (V c main_arg0) (V c main_arg1) (V c main_arg2) (((cfg0.win 3).blk t).view.emb (ix3 p q o))
  refine (ProjBody.payload_apply (iblk0 V c 0 t) (iblk0 V c 1 t) (iblk0 V c 2 t) p q o).trans ?_
  unfold Spec.proj
  refine congrArg₂ (· + ·) (Finset.sum_congr rfl fun k _ => congrArg₂ (· * ·) ?_ ?_) ?_
  · have hk : k.val < 1024 := k.isLt
    show V c main_arg0 (((cfg0.win 0).blk t).view.emb (ix3 p q k))
      = V c main_arg0 (Spec.xAt (((cfg0.win 3).blk t).view.emb (ix3 p q o)) k)
    refine congrArg (V c main_arg0) (funext fun a => Fin.ext ?_)
    match a with
    | ⟨0, _⟩ => show win0_0.index t (0 : Fin 3) * 16 + 1 * p.val = win0_3.index t (0 : Fin 3) * 16 + 1 * p.val; omega
    | ⟨1, _⟩ => show win0_0.index t (1 : Fin 3) * 128 + 1 * q.val = win0_3.index t (1 : Fin 3) * 128 + 1 * q.val; omega
    | ⟨2, _⟩ => show win0_0.index t (2 : Fin 3) * 1024 + 1 * k.val = k.val; omega
  · have hk : k.val < 1024 := k.isLt
    show V c main_arg1 (((cfg0.win 1).blk t).view.emb (ix2 o k))
      = V c main_arg1 (Spec.wAt (((cfg0.win 3).blk t).view.emb (ix3 p q o)) k)
    refine congrArg (V c main_arg1) (funext fun a => Fin.ext ?_)
    match a with
    | ⟨0, _⟩ => show win0_1.index t (0 : Fin 2) * 3 + 1 * o.val = win0_3.index t (2 : Fin 3) * 3 + 1 * o.val; omega
    | ⟨1, _⟩ => show win0_1.index t (1 : Fin 2) * 1024 + 1 * k.val = k.val; omega
  · show V c main_arg2 (((cfg0.win 2).blk t).view.emb (ix1 o))
      = V c main_arg2 (Spec.bAt (((cfg0.win 3).blk t).view.emb (ix3 p q o)))
    refine congrArg (V c main_arg2) (funext fun a => Fin.ext ?_)
    match a with
    | ⟨0, _⟩ => show win0_2.index t (0 : Fin 1) * 3 + 1 * o.val = win0_3.index t (2 : Fin 3) * 3 + 1 * o.val; omega

/-- An index of the output array is in point `t`'s block iff each coordinate is in the block's range on its axis. -/
theorem mem_blk (t : Fin cfg0.N) (i : S512x512x3.Idx) :
    i ∈ ((cfg0.win 3).blk t).view.set ↔ ∀ a : Fin 3, win0_3.index t a * S16x128x3.size a ≤ (i a).val ∧ (i a).val < win0_3.index t a * S16x128x3.size a + S16x128x3.size a := by
  show i ∈ ((View.whole main_v0).slice (win0_3.rect t)).set ↔ _
  rw [View.set_slice_whole, Rect.mem_set_unit]
  exact Iff.rfl

/-- The blocks tile the output: row `r` is in row block `r / 16`, column `s` in column block `s / 128`. -/
theorem cover (i : S512x512x3.Idx) :
    ∃ t : Fin cfg0.N, (cfg0.win 3).flush t = true ∧ i ∈ ((cfg0.win 3).blk t).view.set := by
  have hi0 : (i 0).val < 512 := (i 0).isLt
  have hi1 : (i 1).val < 512 := (i 1).isLt
  have hi2 : (i 2).val < 3 := (i 2).isLt
  obtain ⟨t, ht⟩ := idx_onto ⟨(i 0).val / 16, by omega⟩ ⟨(i 1).val / 128, by omega⟩
  have q0 : win0_3.index t (0 : Fin 3) = (i 0).val / 16 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 128 ≤ (i 1).val ∧ (i 1).val < win0_3.index t (1 : Fin 3) * 128 + 128; omega
  | ⟨2, _⟩ => show win0_3.index t (2 : Fin 3) * 3 ≤ (i 2).val ∧ (i 2).val < win0_3.index t (2 : Fin 3) * 3 + 3; omega

/-- The output array after the region: the projection of the input, weight and bias arrays as the region finds them. -/
theorem value (c : Dev nD) :
    (dat0 V c).arrAt 3 cfg0.N = Spec.proj (V c main_arg0) (V c main_arg1) (V c main_arg2) :=
  (dat0 V c).arrAt_eq_of_cover 3 _ (fun t _ => flushed_eq V c t) cover

end Cert.KernelIdeal.ProjValue

end
-- ==== Proof.FcBody.lean ====
/-
  The final-layer kernel's body at one grid point, read at an index.

  The body multiplies a block of 128 rows of the flattened activations (1536 columns) by the transpose of a block
  of 512 rows of the weight (1536 columns), into a zero accumulator: at the ideal instance entry (p, n) of the
  128 × 512 result is the plain sum

      Σ k, y (p, k) · w (n, k).

  The narrowing of both operands to bf16 is the identity on extended reals, and the reshape in front of it is to
  the same shape.
-/
import proofs.«122391_j37039797961005_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.FcBody

open Cert.KernelIdeal Cert.KernelIdeal.Gen Idealize.ShloMosaic Idealize.ShloMosaic.ValueIdx

/-! ## The product's operand indices: output (p, n) and column k read the left operand at (p, k), the right at (n, k) -/

theorem lhs_axis0 (i : S128x512.Idx) (q : dot_S128x1536_S512x1536_S128x512_1_1_0_0_n_n.contr.Idx) :
    (dot_S128x1536_S512x1536_S128x512_1_1_0_0_n_n.lhsIdx i q 0).val = (i 0).val := by
  unfold DotDims.lhsIdx
  rw [dif_neg (show ¬(0 : Fin S128x1536.rank) ∈ dot_S128x1536_S512x1536_S128x512_1_1_0_0_n_n.lhsBatch by decide), dif_pos (show (0 : Fin S128x1536.rank) ∈ dot_S128x1536_S512x1536_S128x512_1_1_0_0_n_n.lhsNonContracting by decide)]
  rfl
theorem lhs_axis1 (i : S128x512.Idx) (q : dot_S128x1536_S512x1536_S128x512_1_1_0_0_n_n.contr.Idx) :
    (dot_S128x1536_S512x1536_S128x512_1_1_0_0_n_n.lhsIdx i q 1).val = (q ⟨0, by decide⟩).val :=
  dot_S128x1536_S512x1536_S128x512_1_1_0_0_n_n.lhsIdx_val_of_single rfl i q
theorem rhs_axis0 (i : S128x512.Idx) (q : dot_S128x1536_S512x1536_S128x512_1_1_0_0_n_n.contr.Idx) :
    (dot_S128x1536_S512x1536_S128x512_1_1_0_0_n_n.rhsIdx i q 0).val = (i 1).val := by
  unfold DotDims.rhsIdx
  rw [dif_neg (show ¬(0 : Fin S512x1536.rank) ∈ dot_S128x1536_S512x1536_S128x512_1_1_0_0_n_n.rhsBatch by decide), dif_pos (show (0 : Fin S512x1536.rank) ∈ dot_S128x1536_S512x1536_S128x512_1_1_0_0_n_n.rhsNonContracting by decide)]
  rfl
theorem rhs_axis1 (i : S128x512.Idx) (q : dot_S128x1536_S512x1536_S128x512_1_1_0_0_n_n.contr.Idx) :
    (dot_S128x1536_S512x1536_S128x512_1_1_0_0_n_n.rhsIdx i q 1).val = (q ⟨0, by decide⟩).val :=
  dot_S128x1536_S512x1536_S128x512_1_1_0_0_n_n.rhsIdx_val_of_single rfl i q

/-- Column `k` of the left operand's row for output entry `i` = (p, n): (p, k). -/
abbrev lrow (i : S128x512.Idx) (k : Fin 1536) : S128x1536.Idx := fun a => match a with
  | ⟨0, _⟩ => ⟨(i 0).val, (i 0).isLt⟩
  | ⟨1, _⟩ => ⟨k.val, k.isLt⟩
/-- Column `k` of the right operand's row for output entry `i` = (p, n): (n, k). -/
abbrev rrow (i : S128x512.Idx) (k : Fin 1536) : S512x1536.Idx := fun a => match a with
  | ⟨0, _⟩ => ⟨(i 1).val, (i 1).isLt⟩
  | ⟨1, _⟩ => ⟨k.val, k.isLt⟩

/-- The product into the zero accumulator, at an entry: the sum over the 1536 columns of row times row. -/
theorem product_apply (l : FVec Ideal S128x1536 .bf16) (r : FVec Ideal S512x1536 .bf16) (i : S128x512.Idx) :
    matmul dot_S128x1536_S512x1536_S128x512_1_1_0_0_n_n none l r (constant (F := Ideal) S128x512 .f32 0x00000000#32) i
      = ∑ k : Fin 1536, l (lrow i k) * r (rrow i k) := by
  show FloatOps.matmul dot_S128x1536_S512x1536_S128x512_1_1_0_0_n_n none l r (constant (F := Ideal) S128x512 .f32 0x00000000#32) i = _
  rw [Ideal.matmul_constant_zero_apply, ← Equiv.sum_comp (ValueIdx.contrEquiv1 dot_S128x1536_S512x1536_S128x512_1_1_0_0_n_n 1536 rfl rfl).symm]
  refine Finset.sum_congr rfl fun k _ => ?_
  have hk := ValueIdx.contrEquiv1_symm_val dot_S128x1536_S512x1536_S128x512_1_1_0_0_n_n 1536 rfl rfl k
  have el : dot_S128x1536_S512x1536_S128x512_1_1_0_0_n_n.lhsIdx i ((ValueIdx.contrEquiv1 dot_S128x1536_S512x1536_S128x512_1_1_0_0_n_n 1536 rfl rfl).symm k) = lrow i k := funext fun a => Fin.ext (by
    match a with
    | ⟨0, _⟩ => exact lhs_axis0 _ _
    | ⟨1, _⟩ => exact (lhs_axis1 _ _).trans hk)
  have er : dot_S128x1536_S512x1536_S128x512_1_1_0_0_n_n.rhsIdx i ((ValueIdx.contrEquiv1 dot_S128x1536_S512x1536_S128x512_1_1_0_0_n_n 1536 rfl rfl).symm k) = rrow i k := funext fun a => Fin.ext (by
    match a with
    | ⟨0, _⟩ => exact rhs_axis0 _ _
    | ⟨1, _⟩ => exact (rhs_axis1 _ _).trans hk)
  rw [el, er]

/-! ## The body's payload at (p, n) -/

/-- Entry (p, n) of what the body stores: row `p` of the activation block against row `n` of the weight block. -/
theorem payload_apply (x0 : FVec Ideal S128x1536 .f32) (x1 : FVec Ideal S512x1536 .f32) (p : Fin 128) (n : Fin 512) :
    k1_pay1 (F := Ideal) x0 x1 (ix2 p n) = ∑ k : Fin 1536, x0 (ix2 p k) * x1 (ix2 n k) := by
  unfold k1_pay1
  refine (product_apply _ _ _).trans (Finset.sum_congr rfl fun k _ => ?_)
  refine congrArg₂ (· * ·) ?_ ?_
  · show shapeCast S128x1536 x0 shapeCasts_S128x1536_S128x1536 (lrow (ix2 p n) k) = x0 (ix2 p k)
    rw [shapeCast_self]
    exact congrArg x0 (funext fun a => match a with | ⟨0, _⟩ => rfl | ⟨1, _⟩ => rfl)
  · exact congrArg x1 (funext fun a => match a with | ⟨0, _⟩ => rfl | ⟨1, _⟩ => rfl)

end Cert.KernelIdeal.FcBody

end
-- ==== Proof.FcValue.lean ====
/-
  What the final-layer region leaves in its output array: the whole-array product of the arrays it finds.

  The grid is 4 × 8 points.  Point (a, b) reads rows [128 a, 128 a + 128) of the flattened activations and rows
  [512 b, 512 b + 512) of the weight (all 1536 columns of each), and writes the block
  [128 a, 128 a + 128) × [512 b, 512 b + 512) of the output.  Inside the block the body computes, at (p, n), the
  inner product of activation row `p` of its block with weight row `n` of its block; those are the arrays' rows
  128 a + p and 512 b + n, so what point (a, b) writes back is the block of `Spec.fc` of the two arrays.  The 4 × 8
  blocks tile the 512 × 4096 output (row r lies in block r / 128, column s in block s / 512), so the array ends
  holding `Spec.fc` everywhere.  Stated at any contents `V` the region may be entered from.
-/
import proofs.«122391_j37039797961005_1_alg».proof.Proof.Gen.KernelIdeal.Frame
import proofs.«122391_j37039797961005_1_alg».proof.Proof.FcBody
import proofs.«122391_j37039797961005_1_alg».proof.Proof.Spec

set_option maxRecDepth 16384

noncomputable section

namespace Cert.KernelIdeal.FcValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the activation block moves with the output block's row axis, the weight
    block with its column axis, both at 0 on the 1536 columns; the output's block indices stay inside 4 × 8. -/
theorem idx_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3
    ∧ win1_2.index t (1 : Fin 2) ≤ 7 :=
  (by decide +kernel : ∀ t : Fin grid1.N, _)

/-- Every block of the 4 × 8 tiling is some point's. -/
theorem idx_onto : ∀ (a : Fin 4) (b : Fin 8), ∃ t : Fin cfg1.N, win1_2.index t = ![a.val, b.val] :=
  (by decide +kernel : ∀ (a : Fin 4) (b : Fin 8), ∃ t : Fin grid1.N, win1_2.index t = ![a.val, b.val])

/-- What point `t` writes back is its block of the whole-array product. -/
theorem flushed_eq (c : Dev nD) (t : Fin cfg1.N) :
    (dat1 V c).flushed 2 t
      = ((cfg1.win 2).blk t).view.read (Elt Ideal) (Spec.fc (V c main_v26) (V c main_arg5)) := by
  show (cfg1.win 2).cut (grid1.coords t) ((dat1 V c).after 2 t) = _
  rw [after1_2]
  unfold out1_2
  rw [View.canon_unit_zero zeros2]
  simp only [View.ld_unit_zero (S := S128x1536) zeros2, View.ld_unit_zero (S := S512x1536) zeros2]
  obtain ⟨e0, e1, e2, e3, e4, e5⟩ := idx_facts t
  refine funext (fun (j : S128x512.Idx) => ?_)
  obtain ⟨p, n, rfl⟩ : ∃ (p : Fin 128) (n : Fin 512), j = ix2 p n := ⟨j 0, j 1, eq_ix2 j⟩
  have hp : p.val < 128 := p.isLt
  have hn : n.val < 512 := n.isLt
  show k1_pay1 (F := Ideal) (iblk1 V c 0 t) (iblk1 V c 1 t) (ix2 p n)
    = Spec.fc (V c main_v26) (V c main_arg5) (((cfg1.win 2).blk t).view.emb (ix2 p n))
  refine (FcBody.payload_apply (iblk1 V c 0 t) (iblk1 V c 1 t) p n).trans ?_
  unfold Spec.fc
  refine Finset.sum_congr rfl fun k _ => congrArg₂ (· * ·) ?_ ?_
  · have hk : k.val < 1536 := k.isLt
    show V c main_v26 (((cfg1.win 0).blk t).view.emb (ix2 p k))
      = V c main_v26 (Spec.yAt (((cfg1.win 2).blk t).view.emb (ix2 p n)) k)
    refine congrArg (V c main_v26) (funext fun a => Fin.ext ?_)
    match a with
    | ⟨0, _⟩ => show win1_0.index t (0 : Fin 2) * 128 + 1 * p.val = win1_2.index t (0 : Fin 2) * 128 + 1 * p.val; omega
    | ⟨1, _⟩ => show win1_0.index t (1 : Fin 2) * 1536 + 1 * k.val = k.val; omega
  · have hk : k.val < 1536 := k.isLt
    show V c main_arg5 (((cfg1.win 1).blk t).view.emb (ix2 n k))
      = V c main_arg5 (Spec.vAt (((cfg1.win 2).blk t).view.emb (ix2 p n)) k)
    refine congrArg (V c main_arg5) (funext fun a => Fin.ext ?_)
    match a with
    | ⟨0, _⟩ => show win1_1.index t (0 : Fin 2) * 512 + 1 * n.val = win1_2.index t (1 : Fin 2) * 512 + 1 * n.val; omega
    | ⟨1, _⟩ => show win1_1.index t (1 : Fin 2) * 1536 + 1 * k.val = k.val; omega

/-- An index of the output array is in point `t`'s block iff each coordinate is in the block's range on its axis. -/
theorem mem_blk (t : Fin cfg1.N) (i : S512x4096.Idx) :
    i ∈ ((cfg1.win 2).blk t).view.set ↔ ∀ a : Fin 2, win1_2.index t a * S128x512.size a ≤ (i a).val ∧ (i a).val < win1_2.index t a * S128x512.size a + S128x512.size a := by
  show i ∈ ((View.whole main_v27).slice (win1_2.rect t)).set ↔ _
  rw [View.set_slice_whole, Rect.mem_set_unit]
  exact Iff.rfl

/-- The blocks tile the output: row `r` is in row block `r / 128`, column `s` in column block `s / 512`. -/
theorem cover (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  obtain ⟨t, ht⟩ := idx_onto ⟨(i 0).val / 128, by omega⟩ ⟨(i 1).val / 512, by omega⟩
  have q0 : win1_2.index t (0 : Fin 2) = (i 0).val / 128 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 512 ≤ (i 1).val ∧ (i 1).val < win1_2.index t (1 : Fin 2) * 512 + 512; omega

/-- The output array after the region: the product of the activation and weight arrays as the region finds them. -/
theorem value (c : Dev nD) :
    (dat1 V c).arrAt 2 cfg1.N = Spec.fc (V c main_v26) (V c main_arg5) :=
  (dat1 V c).arrAt_eq_of_cover 2 _ (fun t _ => flushed_eq V c t) cover

end Cert.KernelIdeal.FcValue

end
-- ==== Proof.Chain.lean ====
/-
  The host operations between the two kernel regions, as ONE function.

  Between the regions @main normalises the projected activations per channel: it transposes them to
  [batch, channel, length], takes each channel's mean over batch and length (a sum divided by 262144 = 512 · 512),
  the mean of the squared deviations, multiplies the deviations by the reciprocal square root of that variance
  plus a small constant, scales by `γ`, shifts by `β`, and flattens [batch, channel, length] to [batch, 1536].
  `chain y γ β` is that composition, operation for operation, as a function of the projected activations `y` and of
  `γ`, `β`.  No proof opens it: the reference applies the very same operations to its own projected activations,
  so it is enough that the two programs feed it equal arrays.
-/
import proofs.«122391_j37039797961005_1_alg».proof.Proof.Gen.KernelIdeal

noncomputable section

namespace Cert.KernelIdeal.Between

open Cert.KernelIdeal Cert.KernelIdeal.Gen Idealize.ShloMosaic

variable {F : FTy → Type} [FloatOps F]

/-- The per-channel normalisation, scale, shift and flattening applied to the projected activations `y`. -/
def chain (y : (⟨S512x512x3, .f32⟩ : BufTy).Contents (Elt F)) (γ β : (⟨S3, .f32⟩ : BufTy).Contents (Elt F)) :
    (⟨S512x1536, .f32⟩ : BufTy).Contents (Elt F) :=
  -- [batch, length, channel] to [batch, channel, length]
  have t : (⟨S512x3x512, .f32⟩ : BufTy).Contents (Elt F) := transpose S512x3x512 [0, 2, 1] y transposes_S512x512x3_S512x3x512_0_2_1
  -- the channel's mean: its sum over batch and length, divided by 262144
  have n : (⟨S1x3x1, .f32⟩ : BufTy).Contents (Elt F) := broadcastInDim S1x3x1 ![] bcast_S_S1x3x1 (constant (F := F) S_ .f32 0x48800000#32)
  have mean : (⟨S1x3x1, .f32⟩ : BufTy).Contents (Elt F) :=
    Host.divf (broadcastInDim S1x3x1 ![1] bcast_S3_S1x3x1_1
      (Host.reduceAdd t (constant (F := F) S_ .f32 0x00000000#32) reducesTo_S512x3x512_S3_d0_2 h_S_)) n
  -- the deviations from it, and the mean of their squares
  have dev : (⟨S512x3x512, .f32⟩ : BufTy).Contents (Elt F) := subf t (broadcastInDim S512x3x512 ![0, 1, 2] bcast_S1x3x1_S512x3x512_0_1_2 mean)
  have var : (⟨S1x3x1, .f32⟩ : BufTy).Contents (Elt F) :=
    Host.divf (broadcastInDim S1x3x1 ![1] bcast_S3_S1x3x1_1
      (Host.reduceAdd (mulf dev dev) (constant (F := F) S_ .f32 0x00000000#32) reducesTo_S512x3x512_S3_d0_2 h_S_)) n
  -- deviation times the reciprocal square root of (variance + the small constant)
  have inv : (⟨S1x3x1, .f32⟩ : BufTy).Contents (Elt F) :=
    Host.rsqrt (addf var (broadcastInDim S1x3x1 ![] bcast_S_S1x3x1 (constant (F := F) S_ .f32 0x3727C5AC#32)))
  have normed : (⟨S512x3x512, .f32⟩ : BufTy).Contents (Elt F) := mulf dev (broadcastInDim S512x3x512 ![0, 1, 2] bcast_S1x3x1_S512x3x512_0_1_2 inv)
  -- scale by γ, shift by β, per channel
  have scaled : (⟨S512x3x512, .f32⟩ : BufTy).Contents (Elt F) :=
    mulf normed (broadcastInDim S512x3x512 ![0, 1, 2] bcast_S1x3x1_S512x3x512_0_1_2 (broadcastInDim S1x3x1 ![1] bcast_S3_S1x3x1_1 γ))
  have shifted : (⟨S512x3x512, .f32⟩ : BufTy).Contents (Elt F) :=
    addf scaled (broadcastInDim S512x3x512 ![0, 1, 2] bcast_S1x3x1_S512x3x512_0_1_2 (broadcastInDim S1x3x1 ![1] bcast_S3_S1x3x1_1 β))
  -- [batch, channel, length] flattened to [batch, 1536]
  shapeCast _ shifted shapeCasts_S512x3x512_S512x1536

end Cert.KernelIdeal.Between

end
-- ==== Proof.Between.lean ====
/-
  What the second kernel region is entered with.

  The buffer contents when the second region starts are the host stretch's fold over what the first region left.
  Read at the flattened activations, that fold is `chain` (the stretch as one function) of the first region's
  output array and of `γ`, `β`, which the first region does not touch; read at the final layer's weight it is the
  launch contents, since no host operation and no region writes an argument.
-/
import proofs.«122391_j37039797961005_1_alg».proof.Proof.Gen.KernelIdeal.Frame
import proofs.«122391_j37039797961005_1_alg».proof.Proof.Chain

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

/-- The second region is entered with the flattened activations at `chain` of what the first region left in its
    output array and of `γ`, `β` as the first region left them. -/
theorem entry_activations (c : Dev nD) :
    V2 m ρ c main_v26 = chain (V1 m ρ c main_v0) (V1 m ρ c main_arg3) (V1 m ρ c main_arg4) := by
  show StableHlo.after hostOps1 (W1 m ρ c) (Proc.devRef .tc main_v26) = _
  after_results_simp
  rfl

/-- After the first region its output array holds what the write-backs left. -/
theorem exit_projected (c : Dev nD) : V1 m ρ c main_v0 = (dat0 (V0 m ρ) c).arrAt 3 cfg0.N := W1_arr m ρ c 3
/-- The first region does not touch `γ`, -/
theorem exit_gamma (c : Dev nD) : V1 m ρ c main_arg3 = m ((c : Thread nD τ).loc main_arg3) := W1_of_ne m ρ c main_arg3 (by decide)
/-- nor `β`. -/
theorem exit_beta (c : Dev nD) : V1 m ρ c main_arg4 = m ((c : Thread nD τ).loc main_arg4) := W1_of_ne m ρ c main_arg4 (by decide)

/-- The second region is entered with the final layer's weight as launched: it reads it through an input window, and
    the last boundary's contents at it are the launch contents. -/
theorem entry_weight (c : Dev nD) : V2 m ρ c main_arg5 = m ((c : Thread nD τ).loc main_arg5) :=
  ((W3_arr m ρ c 1).trans (((dat1 (V2 m ρ) c).arrAt_in 1 rfl _).trans (A_eq1 (V2 m ρ) c 1))).symm.trans (W3_main_arg5 m ρ c)

end Cert.KernelIdeal.Between

end
-- ==== Proof.KernelValue.lean ====
/-
  The idealized kernel program's result as a function of its launch arrays.

  The result array ends at the last boundary's contents read at it.  That is what the second region's write-backs
  leave: the final layer (`Spec.fc`) of the arrays the region was entered with.  It was entered with the flattened
  activations at the host stretch's chain of what the first region's write-backs left, and with the weight as
  launched; and the first region left the projection (`Spec.proj`) of the launch input, weight and bias.  So the
  program computes  fc (chain (proj x W_emb b_emb) γ β) W_fc2  of its six argument arrays.
-/
import proofs.«122391_j37039797961005_1_alg».proof.Proof.KernelRun
import proofs.«122391_j37039797961005_1_alg».proof.Proof.ProjValue
import proofs.«122391_j37039797961005_1_alg».proof.Proof.FcValue
import proofs.«122391_j37039797961005_1_alg».proof.Proof.Between

set_option maxRecDepth 16384

noncomputable section

namespace Cert.KernelIdeal.Named

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The last boundary's contents at the result array, in closed form. -/
theorem result_eq (c : Dev nD) :
    W3 m ρ c (Proc.devRef .tc main_v27) = Spec.fc (Between.chain (F := Ideal) (Spec.proj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5)) := by
  refine (W3_arr m ρ c 2).trans ?_
  rw [FcValue.value (V2 m ρ) c, Between.entry_activations, Between.entry_weight, Between.exit_projected,
    ProjValue.value (V0 m ρ) c, Between.exit_gamma, Between.exit_beta]

/-- Every weakly fair execution of @main terminates, nothing faulting, with the result array at that closed form and
    the argument arrays as launched. -/
theorem run : θ_run defs (onTc (τ := τ) (main (F := Ideal))) ⟨m, fun _ => 0, ρ⟩ (fun r => ∀ c : Dev nD,
      r.2.mem ((c.tc : Thread nD τ).loc main_v27) = Spec.fc (Between.chain (F := Ideal) (Spec.proj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Named

end
-- ==== Proof.RefSide.lean ====
/-
  The reference's result, as the same three functions the kernel program's result is stated with.

  The reference computes the projection as one contraction of `x` with `W_emb` over the feature axis and adds the
  bias broadcast along batch and length: entry (p, q, o) is Σ i, x (p, q, i) · W_emb (o, i) + b_emb o, which is
  `Spec.proj`.  It then applies to that array exactly the operations `Between.chain` names, with the same constants.
  Last it contracts the flattened activations with the TRANSPOSE of `W_fc2` over the transposed array's first
  axis: entry (p, n) is Σ k, y (p, k) · W_fc2ᵀ (k, n) = Σ k, y (p, k) · W_fc2 (n, k), which is `Spec.fc`.
-/
import proofs.«122391_j37039797961005_1_alg».proof.Proof.Gen.ReferenceIdeal.Read
import proofs.«122391_j37039797961005_1_alg».proof.Proof.Chain
import proofs.«122391_j37039797961005_1_alg».proof.Proof.Spec

noncomputable section

namespace Cert.ReferenceIdeal.RefSide

open Cert.ReferenceIdeal Cert.ReferenceIdeal.Read Idealize.ShloMosaic Idealize.ShloMosaic.TcCoe Idealize.SL.Sem

/-- The contraction over the features plus the broadcast bias is the projection. -/
theorem projected_eq (x0 : (⟨S512x512x1024, .f32⟩ : BufTy).Contents (Elt Ideal)) (x1 : (⟨S3x1024, .f32⟩ : BufTy).Contents (Elt Ideal)) (x2 : (⟨S3, .f32⟩ : BufTy).Contents (Elt Ideal)) :
    val_main_v3 (F := Ideal) x0 x1 x2 = Spec.proj x0 x1 x2 := by
  funext i
  rw [val_main_v3_apply, val_main_v0_apply, val_main_v2_apply, val_main_v1_apply]
  unfold Spec.proj
  refine congrArg₂ (· + ·) (Finset.sum_congr rfl fun k _ => congrArg₂ (· * ·) ?_ ?_) ?_
  · exact congrArg x0 (funext fun a => match a with | ⟨0, _⟩ => rfl | ⟨1, _⟩ => rfl | ⟨2, _⟩ => rfl)
  · exact congrArg x1 (funext fun a => match a with | ⟨0, _⟩ => rfl | ⟨1, _⟩ => rfl)
  · exact congrArg x2 (funext fun a => match a with | ⟨0, _⟩ => rfl)

/-- The operations from the transpose to the flattening are the chain, applied to the projected activations. -/
theorem flattened_eq (x0 : (⟨S512x512x1024, .f32⟩ : BufTy).Contents (Elt Ideal)) (x1 : (⟨S3x1024, .f32⟩ : BufTy).Contents (Elt Ideal)) (x2 x3 x4 : (⟨S3, .f32⟩ : BufTy).Contents (Elt Ideal)) :
    val_main_v29 (F := Ideal) x0 x1 x2 x3 x4
      = Cert.KernelIdeal.Between.chain (F := Ideal) (val_main_v3 (F := Ideal) x0 x1 x2) x3 x4 := by
  -- every stage from the transpose on unfolds to its one operation over the stages before it; the projected
  -- activations stay named, and the two sides are then the same operations over that one array
  simp only [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3]
  rfl

/-- The contraction with the transposed weight is the final layer on the untransposed weight. -/
theorem final_eq (x0 : (⟨S512x512x1024, .f32⟩ : BufTy).Contents (Elt Ideal)) (x1 : (⟨S3x1024, .f32⟩ : BufTy).Contents (Elt Ideal)) (x2 x3 x4 : (⟨S3, .f32⟩ : BufTy).Contents (Elt Ideal)) (x5 : (⟨S4096x1536, .f32⟩ : BufTy).Contents (Elt Ideal)) :
    val_main_v31 (F := Ideal) x0 x1 x2 x3 x4 x5 = Spec.fc (val_main_v29 (F := Ideal) x0 x1 x2 x3 x4) x5 := by
  funext i
  rw [val_main_v31_apply]
  unfold Spec.fc
  refine Finset.sum_congr rfl fun k _ => congrArg₂ (· * ·) ?_ ?_
  · exact congrArg (val_main_v29 (F := Ideal) x0 x1 x2 x3 x4) (funext fun a => match a with | ⟨0, _⟩ => rfl | ⟨1, _⟩ => rfl)
  · exact (val_main_v30_apply x5 _).trans (congrArg x5 (funext fun a => match a with | ⟨0, _⟩ => rfl | ⟨1, _⟩ => rfl))

/-- The reference run's result: the final layer of the chain of the projection, of the launch arrays. -/
theorem result_eq (m : (ℓ : Loc nD τ sig) → Buf (Elt Ideal) ℓ) (c : Dev nD) :
    Cert.ReferenceIdeal.Value.res_main_v31 m c
      = Spec.fc (Cert.KernelIdeal.Between.chain (F := Ideal)
          (Spec.proj (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)))
          (m ((c.tc : Thread nD τ).loc main_arg5)) := by
  rw [val_main_v31_eq, final_eq, flattened_eq, projected_eq]

end Cert.ReferenceIdeal.RefSide

end
-- ==== Proof.lean ====
/-
  A two-layer network on patches: a per-patch linear projection (1024 features to 3 channels, plus bias), a
  per-channel normalisation over batch and length with scale and shift, a flattening, and a final linear layer
  (1536 to 4096).  The kernel program computes the two linear layers in two tiled kernel regions and the
  normalisation between them on the host; the reference computes all of it on the host.

  At the ideal instance both results are the same function of the six argument arrays,

      fc (chain (proj x W_emb b_emb) γ β) W_fc2,

  where `proj` and `fc` (Proof/Spec.lean) are the two layers as plain finite sums of products and `chain`
  (Proof/Chain.lean) is the normalisation, scale, shift and flattening — the same operations with the same constants
  in both programs, so it is carried as one function and never opened.  On the kernel side each region's output
  array is its layer of the arrays the region was entered with, because every block the region writes back is that
  block of the layer and the blocks tile the array (Proof/ProjValue.lean, Proof/FcValue.lean, over the bodies read at
  an index in Proof/ProjBody.lean, Proof/FcBody.lean); the host stretch between them is the chain
  (Proof/Between.lean); Proof/KernelValue.lean composes them along the frame run re-posted in Proof/KernelRun.lean.
  On the reference side the first contraction plus bias is `proj`, the contraction with the transposed weight is
  `fc` (Proof/RefSide.lean).  The two sums differ only in how they are tiled and in a zero the kernel's products
  start from, so no law that needs finite inputs is used: the precondition is never opened.

  The three frames are the generated ones (the reference's is its generated run with the result dropped), and the
  idealization rewrote no operation, so `preserves` is trivial.
-/
import proofs.«122391_j37039797961005_1_alg».proof.Defs
import proofs.«122391_j37039797961005_1_alg».proof.Proof.Gen.Kernel
import proofs.«122391_j37039797961005_1_alg».proof.Proof.Gen.Kernel.Frame
import proofs.«122391_j37039797961005_1_alg».proof.Proof.Gen.KernelIdeal
import proofs.«122391_j37039797961005_1_alg».proof.Proof.Gen.KernelIdeal.Frame
import proofs.«122391_j37039797961005_1_alg».proof.Proof.Gen.ReferenceIdeal
import proofs.«122391_j37039797961005_1_alg».proof.Proof.Gen.Pre_finite_inputs
import proofs.«122391_j37039797961005_1_alg».proof.Proof.Gen.ReferenceIdeal.Run
import proofs.«122391_j37039797961005_1_alg».proof.Proof.Gen.ReferenceIdeal.Read
import proofs.«122391_j37039797961005_1_alg».proof.Proof.KernelValue
import proofs.«122391_j37039797961005_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at
    `fc (chain (proj x W_emb b_emb) γ β) W_fc2` of the kernel program's launch arrays. -/
theorem algebraic : Cert.algebraic_KernelIdeal_ReferenceIdeal := by
  intro m ρ m' ρ' _ hagree
  refine ⟨fun c => Cert.Spec.fc (Cert.KernelIdeal.Between.chain (F := Ideal) (Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.RefSide.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
